-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S512x512 : Shape := ⟨2, ![512, 512]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S256x512 .f32) (main_arg1 : FVec F S512x512 .f32) (main_arg2 : FVec F S512x512 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Kernel.lean ====
abbrev S256x512 : Shape := ⟨2, ![256, 512]⟩
abbrev S512x512 : Shape := ⟨2, ![512, 512]⟩
abbrev S256x512x512 : Shape := ⟨3, ![256, 512, 512]⟩
abbrev S8x512 : Shape := ⟨2, ![8, 512]⟩
abbrev S8x512x512 : Shape := ⟨3, ![8, 512, 512]⟩
abbrev S8x512x1 : Shape := ⟨3, ![8, 512, 1]⟩
abbrev S1x512x512 : Shape := ⟨3, ![1, 512, 512]⟩

abbrev nBuf : Space → Nat
  | .hbm => 4
  | .vmem => 6
  | .smem => 0
  | _ => 0

abbrev bufTy : (tb : Table) → Fin (tcTables nBuf tb) → BufTy
  | .hbm, ⟨0, _⟩ => ⟨S256x512, .f32⟩
  | .hbm, ⟨1, _⟩ => ⟨S512x512, .f32⟩
  | .hbm, ⟨2, _⟩ => ⟨S512x512, .f32⟩
  | .hbm, ⟨3, _⟩ => ⟨S256x512x512, .f32⟩
  | .local _ .vmem, ⟨0, _⟩ => ⟨S8x512, .f32⟩
  | .local _ .vmem, ⟨1, _⟩ => ⟨S8x512, .f32⟩
  | .local _ .vmem, ⟨2, _⟩ => ⟨S512x512, .f32⟩
  | .local _ .vmem, ⟨3, _⟩ => ⟨S512x512, .f32⟩
  | .local _ .vmem, ⟨4, _⟩ => ⟨S8x512x512, .f32⟩
  | .local _ .vmem, ⟨5, _⟩ => ⟨S8x512x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S8x512_S8x512_0_0 : ∀ a, (![0, 0] : Fin 2 → Nat) a + S8x512.size a ≤ S8x512.size a
  h_S8x512 : 0 < S8x512.numel
  inb_S512x512_S512x512_0_0 : ∀ a, (![0, 0] : Fin 2 → Nat) a + S512x512.size a ≤ S512x512.size a
  h_S512x512 : 0 < S512x512.numel
  shapeCasts_S8x512_S8x512x1 : S8x512.ShapeCasts S8x512x1
  shapeCasts_S512x512_S1x512x512 : S512x512.ShapeCasts S1x512x512
  broadcasts_S8x512x1_S8x512x512 : S8x512x1.Broadcasts S8x512x512
  broadcasts_S1x512x512_S8x512x512 : S1x512x512.Broadcasts S8x512x512
  inb_S8x512x512_S8x512x512_0_0_0 : ∀ a, (![0, 0, 0] : Fin 3 → Nat) a + S8x512x512.size a ≤ S8x512x512.size a
  h_S8x512x512 : 0 < S8x512x512.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512.size a ≤ S256x512.size a
  hwx0_0 : ∀ i : grid0.Coords, EltTy.bits .f32 = 32 ∨ (Rect.block (s := S256x512) S8x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512x512.size a ≤ S256x512x512.size a
  hwx0_3 : ∀ i : grid0.Coords, EltTy.bits .f32 = 32 ∨ (Rect.block (s := S256x512x512) S8x512x512.size (cc0_transform_3 i) (hinb0_3 i)).WholeWords (EltTy.packing .f32)

variable [Facts₀]

abbrev win0_0 : Pipeline.Window sig grid0 :=
  Pipeline.Window.ofSpec (Memref.whole main_arg0) S8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8x512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x512 : Shape := ⟨2, ![256, 512]⟩
abbrev S512x512 : Shape := ⟨2, ![512, 512]⟩
abbrev S256x512x1 : Shape := ⟨3, ![256, 512, 1]⟩
abbrev S1x512x512 : Shape := ⟨3, ![1, 512, 512]⟩
abbrev S256x512x512 : Shape := ⟨3, ![256, 512, 512]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x512, .f32⟩
  | .hbm, ⟨2, _⟩ => ⟨S512x512, .f32⟩
  | .hbm, ⟨3, _⟩ => ⟨S256x512x1, .f32⟩
  | .hbm, ⟨4, _⟩ => ⟨S1x512x512, .f32⟩
  | .hbm, ⟨5, _⟩ => ⟨S256x512x512, .f32⟩
  | .hbm, ⟨6, _⟩ => ⟨S256x512x512, .f32⟩
  | .hbm, ⟨7, _⟩ => ⟨S256x512x512, .f32⟩
  | .hbm, ⟨8, _⟩ => ⟨S1x512x512, .f32⟩
  | .hbm, ⟨9, _⟩ => ⟨S256x512x512, .f32⟩
  | .hbm, ⟨10, _⟩ => ⟨S256x512x512, .f32⟩
  | .hbm, ⟨11, _⟩ => ⟨S_, .f32⟩
  | .hbm, ⟨12, _⟩ => ⟨S256x512x512, .f32⟩
  | .hbm, ⟨13, _⟩ => ⟨S256x512x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_cst : Ref sig .tc := ⟨.hbm, 11, rfl⟩
abbrev main_call0_v0 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S256x512_S256x512x1_0_1 : S256x512.BroadcastsInDim S256x512x1 (![0, 1] : Fin 2 → Fin S256x512x1.rank)
  bcast_S512x512_S1x512x512_1_2 : S512x512.BroadcastsInDim S1x512x512 (![1, 2] : Fin 2 → Fin S1x512x512.rank)
  bcast_S256x512x1_S256x512x512_0_1_2 : S256x512x1.BroadcastsInDim S256x512x512 (![0, 1, 2] : Fin 3 → Fin S256x512x512.rank)
  bcast_S1x512x512_S256x512x512_0_1_2 : S1x512x512.BroadcastsInDim S256x512x512 (![0, 1, 2] : Fin 3 → Fin S256x512x512.rank)
  bcast_S_S256x512x512 : S_.BroadcastsInDim S256x512x512 (![] : Fin 0 → Fin S256x512x512.rank)

variable [Facts₀]

class Facts : Prop extends Facts₀ where

variable [Facts]
-- ==== Proof.AffineRelu.lean ====
/-
  The function both programs compute: a position-wise affine map of a scalar followed by the positive part.

  For an input `x` of shape [256, 512] and two tables `W`, `b` of shape [512, 512], the result has shape
  [256, 512, 512] and its entry at (n, p, q) is

      max (x(n, p) · W(p, q) + b(p, q), 0).

  Every entry depends on exactly one entry of each argument, so the function is stated index by index. Nothing is
  summed and no factor moves across a sum: the two programs apply the same three scalar operations in the same
  order, and no law of the extended reals is needed to compare them. The definition is therefore given for any
  float instance.
-/
import Idealize.ShloMosaic.PureOps.Ideal
import Idealize.ShloMosaic.Lib.ValueIdx

noncomputable section

namespace Cert.AffineRelu

open Idealize.ShloMosaic

variable {F : FTy → Type} [FloatOps F]

/-- The (n, p) entry of `x` that the result's entry (n, p, q) reads. -/
abbrev posOf (i : (⟨3, ![256, 512, 512]⟩ : Shape).Idx) : (⟨2, ![256, 512]⟩ : Shape).Idx :=
  fun a => match a with
    | ⟨0, _⟩ => ⟨(i 0).val, (i 0).isLt⟩
    | ⟨1, _⟩ => ⟨(i 1).val, (i 1).isLt⟩

/-- The (p, q) entry of `W` and of `b` that the result's entry (n, p, q) reads. -/
abbrev featOf (i : (⟨3, ![256, 512, 512]⟩ : Shape).Idx) : (⟨2, ![512, 512]⟩ : Shape).Idx :=
  fun a => match a with
    | ⟨0, _⟩ => ⟨(i 1).val, (i 1).isLt⟩
    | ⟨1, _⟩ => ⟨(i 2).val, (i 2).isLt⟩

/-- `max (x(n, p) · W(p, q) + b(p, q), 0)` at every (n, p, q); the zero is the float whose word is all zeros. -/
def affineRelu (x : (⟨2, ![256, 512]⟩ : Shape).Idx → Elt F .f32) (W b : (⟨2, ![512, 512]⟩ : Shape).Idx → Elt F .f32) :
    (⟨3, ![256, 512, 512]⟩ : Shape).Idx → Elt F .f32 :=
  fun i => FloatOps.maximumf (FloatOps.addf (FloatOps.mulf (x (posOf i)) (W (featOf i))) (b (featOf i)))
    (FloatOps.ofBits .f32 0x00000000#32)

end Cert.AffineRelu

end
-- ==== Proof.KernelAffine.lean ====
/-
  The kernel computes the position-wise affine map followed by the positive part.

  The kernel walks 32 grid points. At point `t` it is handed rows 8·t … 8·t+7 of `x` (a block of shape [8, 512]) and
  the whole of `W` and `b`, and writes the block of shape [8, 512, 512] that holds the result's rows 8·t … 8·t+7.
  Inside the block, the entry (r, p, q) is `max (xblock(r, p) · W(p, q) + b(p, q), 0)`: the reshapes and broadcasts of
  the body only copy entries. Since `xblock(r, p) = x(8·t + r, p)`, that is the specified function at (8·t + r, p, q):
  each point writes back exactly its block of ONE function of the argument arrays. Row `n` of the result lies in the
  block of point `n / 8`, so the 32 blocks cover the result and the array ends holding the specified function.
-/
import proofs.«113622_j51092930953908_1_alg».proof.Proof.Gen.KernelIdeal.Value
import proofs.«113622_j51092930953908_1_alg».proof.Proof.AffineRelu

set_option maxRecDepth 16384

noncomputable section

namespace Cert.KernelIdeal.Affine

open Cert.KernelIdeal Cert.KernelIdeal.Gen Cert.KernelIdeal.Value Cert.AffineRelu
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem zero2 : (![0, 0] : Fin 2 → Nat) = fun _ => 0 := funext fun a => by fin_cases a <;> rfl

/-- What the body leaves in the output block, for any three input blocks: entry (r, p, q) is
    `max (x0(r, p) · x1(p, q) + x2(p, q), 0)`. The body loads each input block whole. -/
theorem block_eq (x0 : Vec F S8x512 .f32) (x1 x2 : Vec F S512x512 .f32) : out0_3 x0 x1 x2 = E3 x0 x1 x2 := by
  unfold out0_3
  simp only [View.ld_unit_zero (S := S8x512) zero2, View.ld_unit_zero (S := S512x512) zero2]
  exact funext fun y => canon3_eq x0 x1 x2 y

/-- Where each window's block sits at point `t`, decided over the 32 points: the block of `x` moves with the
    output's block along the rows and both start at row 8·t; `W` and `b` are always taken whole, and the output's
    block spans the other two axes whole. -/
theorem block_places : ∀ t : Fin cfg0.N,
    win0_3.index t (0 : Fin 3) = t.val ∧ win0_3.index t (1 : Fin 3) = 0 ∧ win0_3.index t (2 : Fin 3) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The entry (r, p) of the block of `x` at point `t` is the entry of `x` that the result's entry (8·t + r, p, q)
    reads. -/
theorem place_x (t : Fin cfg0.N) (j : S8x512x512.Idx) :
    ((cfg0.win 0).blk t).view.emb (ix3_0 j) = posOf (((cfg0.win 3).blk t).view.emb j) := by
  obtain ⟨e0, e1, e2, e3, e4, e5, e6, e7, e8⟩ := block_places t
  funext a; apply Fin.ext
  match a with
  | ⟨0, _⟩ => show win0_0.index t (0 : Fin 2) * 8 + 1 * (j 0).val = win0_3.index t (0 : Fin 3) * 8 + 1 * (j 0).val; omega
  | ⟨1, _⟩ => show win0_0.index t (1 : Fin 2) * 512 + 1 * (j 1).val = win0_3.index t (1 : Fin 3) * 512 + 1 * (j 1).val; omega

/-- The entry (p, q) of the block of `W` (the whole table) is the entry the result's entry (8·t + r, p, q) reads. -/
theorem place_W (t : Fin cfg0.N) (j : S8x512x512.Idx) :
    ((cfg0.win 1).blk t).view.emb (ix3_1 j) = featOf (((cfg0.win 3).blk t).view.emb j) := by
  obtain ⟨e0, e1, e2, e3, e4, e5, e6, e7, e8⟩ := block_places t
  funext a; apply Fin.ext
  match a with
  | ⟨0, _⟩ => show win0_1.index t (0 : Fin 2) * 512 + 1 * (j 1).val = win0_3.index t (1 : Fin 3) * 512 + 1 * (j 1).val; omega
  | ⟨1, _⟩ => show win0_1.index t (1 : Fin 2) * 512 + 1 * (j 2).val = win0_3.index t (2 : Fin 3) * 512 + 1 * (j 2).val; omega

/-- The same for the block of `b`. -/
theorem place_b (t : Fin cfg0.N) (j : S8x512x512.Idx) :
    ((cfg0.win 2).blk t).view.emb (ix3_2 j) = featOf (((cfg0.win 3).blk t).view.emb j) := by
  obtain ⟨e0, e1, e2, e3, e4, e5, e6, e7, e8⟩ := block_places t
  funext a; apply Fin.ext
  match a with
  | ⟨0, _⟩ => show win0_2.index t (0 : Fin 2) * 512 + 1 * (j 1).val = win0_3.index t (1 : Fin 3) * 512 + 1 * (j 1).val; omega
  | ⟨1, _⟩ => show win0_2.index t (1 : Fin 2) * 512 + 1 * (j 2).val = win0_3.index t (2 : Fin 3) * 512 + 1 * (j 2).val; omega

/-- WHAT POINT `t` WRITES BACK is block `t` of the specified function of the argument arrays. -/
theorem flushed_eq (c : Dev nD) (t : Fin cfg0.N) :
    (dats m 0 c).flushed 3 t
      = ((cfg0.win 3).blk t).view.read (Elt F) (affineRelu (F := F) (V m c main_arg0) (V m c main_arg1) (V m c main_arg2)) := by
  rw [flushed3, block_eq]
  funext j
  show FloatOps.maximumf (FloatOps.addf (FloatOps.mulf (V m c main_arg0 (((cfg0.win 0).blk t).view.emb (ix3_0 j)))
        (V m c main_arg1 (((cfg0.win 1).blk t).view.emb (ix3_1 j)))) (V m c main_arg2 (((cfg0.win 2).blk t).view.emb (ix3_2 j))))
        (Scalar.ofBits .f32 0x00000000#32)
      = FloatOps.maximumf (FloatOps.addf (FloatOps.mulf (V m c main_arg0 (posOf (((cfg0.win 3).blk t).view.emb j)))
        (V m c main_arg1 (featOf (((cfg0.win 3).blk t).view.emb j)))) (V m c main_arg2 (featOf (((cfg0.win 3).blk t).view.emb j))))
        (FloatOps.ofBits .f32 0x00000000#32)
  rw [place_x, place_W, place_b]

/-- An index of the result lies in point `t`'s block iff each coordinate lies in the block's range on its axis. -/
theorem mem_block (t : Fin cfg0.N) (i : S256x512x512.Idx) :
    i ∈ ((cfg0.win 3).blk t).view.set ↔ ∀ a : Fin 3, win0_3.index t a * S8x512x512.size a ≤ (i a).val ∧ (i a).val < win0_3.index t a * S8x512x512.size a + S8x512x512.size a := by
  show i ∈ ((View.whole main_v0).slice (win0_3.rect t)).set ↔ _
  rw [View.set_slice_whole, Rect.mem_set_unit]
  exact Iff.rfl

/-- Row `n` of the result lies in the block of point `n / 8`: the 32 blocks cover the result. -/
theorem covered (i : S256x512x512.Idx) :
    ∃ t : Fin cfg0.N, (cfg0.win 3).flush t = true ∧ i ∈ ((cfg0.win 3).blk t).view.set := by
  have h0 : (i 0).val < 256 := (i 0).isLt
  have h1 : (i 1).val < 512 := (i 1).isLt
  have h2 : (i 2).val < 512 := (i 2).isLt
  let t : Fin cfg0.N := ⟨(i 0).val / 8, by show (i 0).val / 8 < 32; omega⟩
  have ht : t.val = (i 0).val / 8 := rfl
  obtain ⟨e0, e1, e2, -⟩ := block_places t
  refine ⟨t, flush0_3 t, ?_⟩
  rw [mem_block]
  intro a
  match a with
  | ⟨0, _⟩ => show win0_3.index t (0 : Fin 3) * 8 ≤ (i 0).val ∧ (i 0).val < win0_3.index t (0 : Fin 3) * 8 + 8; omega
  | ⟨1, _⟩ => show win0_3.index t (1 : Fin 3) * 512 ≤ (i 1).val ∧ (i 1).val < win0_3.index t (1 : Fin 3) * 512 + 512; omega
  | ⟨2, _⟩ => show win0_3.index t (2 : Fin 3) * 512 ≤ (i 2).val ∧ (i 2).val < win0_3.index t (2 : Fin 3) * 512 + 512; omega

/-- THE RESULT ARRAY after the run is the specified function of the argument arrays as launched. -/
theorem final (c : Dev nD) :
    (dats m 0 c).arrAt 3 cfg0.N
      = affineRelu (F := F) (m ((c : Thread nD τ).loc main_arg0)) (m ((c : Thread nD τ).loc main_arg1)) (m ((c : Thread nD τ).loc main_arg2)) :=
  (dats m 0 c).arrAt_eq_of_cover 3 _ (fun t _ => flushed_eq m c t) covered

/-- Every weakly fair execution of the kernel terminates with the result array at the specified function of the
    arguments, and the arguments unchanged. -/
theorem run : θ_run defs (onTc (τ := τ) (main (F := F))) ⟨m, fun _ => 0, ρ⟩ fun r => ∀ c : Dev nD,
      r.2.mem ((c : Thread nD τ).loc main_v0)
        = affineRelu (F := F) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Affine

end
-- ==== Proof.ReferenceAffine.lean ====
/-
  The reference computes the position-wise affine map followed by the positive part.

  The reference broadcasts `x` from [256, 512] to [256, 512, 1] and then to [256, 512, 512], broadcasts `W` and `b`
  from [512, 512] to [1, 512, 512] and then to [256, 512, 512], multiplies, adds, and takes the maximum with a
  broadcast zero. A broadcast copies: read at the index (n, p, q), the two broadcasts of `x` land on `x(n, p)` and the
  two broadcasts of a table land on its entry (p, q). The product, the sum and the maximum act entry by entry. So the
  reference's result at (n, p, q) is `max (x(n, p) · W(p, q) + b(p, q), 0)`, the specified function.
-/
import proofs.«113622_j51092930953908_1_alg».proof.Proof.Gen.ReferenceIdeal.Read
import proofs.«113622_j51092930953908_1_alg».proof.Proof.AffineRelu

noncomputable section

namespace Cert.ReferenceIdeal.Affine

open Cert.ReferenceIdeal Cert.ReferenceIdeal.Gen Cert.ReferenceIdeal.Read Cert.AffineRelu Idealize.ShloMosaic

variable {F : FTy → Type} [FloatOps F]

/-- Through both broadcasts of `x`, the index (n, p, q) reads `x` at (n, p). -/
theorem read_x (i : S256x512x512.Idx) : idx_main_v0 (idx_main_v2 i) = posOf i :=
  funext fun a => match a with | ⟨0, _⟩ => rfl | ⟨1, _⟩ => rfl

/-- Through both broadcasts of `W`, the index (n, p, q) reads `W` at (p, q). -/
theorem read_W (i : S256x512x512.Idx) : idx_main_v1 (idx_main_v3 i) = featOf i :=
  funext fun a => match a with | ⟨0, _⟩ => rfl | ⟨1, _⟩ => rfl

/-- Through both broadcasts of `b`, the index (n, p, q) reads `b` at (p, q). -/
theorem read_b (i : S256x512x512.Idx) : idx_main_v5 (idx_main_v6 i) = featOf i :=
  funext fun a => match a with | ⟨0, _⟩ => rfl | ⟨1, _⟩ => rfl

/-- The reference's last stage, as a function of the three arguments, is the specified function. -/
theorem result_eq (x : (⟨S256x512, .f32⟩ : BufTy).Contents (Elt F)) (W b : (⟨S512x512, .f32⟩ : BufTy).Contents (Elt F)) :
    val_main_v8 (F := F) x W b = affineRelu (F := F) x W b := by
  funext i
  rw [val_main_v8_apply, val_main_v7_apply, val_main_v4_apply, val_main_v2_apply, val_main_v0_apply,
    val_main_v3_apply, val_main_v1_apply, val_main_v6_apply, val_main_v5_apply, val_main_call0_v0_apply,
    val_main_call0_cst_apply, read_x, read_W, read_b]
  rfl

end Cert.ReferenceIdeal.Affine

end
-- ==== Proof.lean ====
/-
  The kernel and its reference compute one function: a position-wise affine map of a scalar followed by the positive
  part. For `x` of shape [256, 512] and tables `W`, `b` of shape [512, 512] the result of shape [256, 512, 512] holds

      max (x(n, p) · W(p, q) + b(p, q), 0)        at (n, p, q).

  The kernel produces it eight rows of `n` at a time over 32 grid points, each point writing back its block of that
  one function of the arguments, and the blocks cover the result (Proof/KernelAffine.lean). The reference produces it
  by broadcasting the three arguments to the result's shape and combining them entry by entry
  (Proof/ReferenceAffine.lean). Both apply the same product, sum and maximum with the same zero to the same three
  entries, in the same order, so the results agree entry by entry on the extended reals with no appeal to the
  finiteness of the inputs: nothing is summed, regrouped or distributed.

  Each program terminates without a fault and leaves its arguments as they were; for the reference this is its run
  with the statement about the result dropped. The idealized kernel is the kernel's own text read over the extended
  reals: no operation was rewritten, so there is nothing to preserve.
-/
import proofs.«113622_j51092930953908_1_alg».proof.Defs
import proofs.«113622_j51092930953908_1_alg».proof.Proof.Gen.Kernel
import proofs.«113622_j51092930953908_1_alg».proof.Proof.Gen.Kernel.Skeleton
import proofs.«113622_j51092930953908_1_alg».proof.Proof.Gen.Kernel.Launch
import proofs.«113622_j51092930953908_1_alg».proof.Proof.Gen.Kernel.Points
import proofs.«113622_j51092930953908_1_alg».proof.Proof.Gen.Kernel.Frame
import proofs.«113622_j51092930953908_1_alg».proof.Proof.Gen.KernelIdeal
import proofs.«113622_j51092930953908_1_alg».proof.Proof.Gen.KernelIdeal.Skeleton
import proofs.«113622_j51092930953908_1_alg».proof.Proof.Gen.KernelIdeal.Launch
import proofs.«113622_j51092930953908_1_alg».proof.Proof.Gen.KernelIdeal.Points
import proofs.«113622_j51092930953908_1_alg».proof.Proof.Gen.KernelIdeal.Frame
import proofs.«113622_j51092930953908_1_alg».proof.Proof.Gen.ReferenceIdeal
import proofs.«113622_j51092930953908_1_alg».proof.Proof.Gen.Pre_finite_inputs
import proofs.«113622_j51092930953908_1_alg».proof.Proof.Gen.KernelIdeal.Value
import proofs.«113622_j51092930953908_1_alg».proof.Proof.Gen.ReferenceIdeal.Run
import proofs.«113622_j51092930953908_1_alg».proof.Proof.Gen.ReferenceIdeal.Read
import proofs.«113622_j51092930953908_1_alg».proof.Proof.AffineRelu
import proofs.«113622_j51092930953908_1_alg».proof.Proof.KernelAffine
import proofs.«113622_j51092930953908_1_alg».proof.Proof.ReferenceAffine
import Idealize.ShloMosaic.Adequacy
import Idealize.ShloMosaic.Init

noncomputable section

namespace Cert.Proof

open Idealize.ShloMosaic Idealize.ShloMosaic.TcCoe Idealize.SL.Sem

/-- The kernel, word by word, terminates and keeps its arguments. -/
theorem frame_kernel [Cert.Kernel.Facts] [Cert.Pre_finite_inputs.Facts] : Cert.frame_Kernel :=
  fun m ρ _ => Cert.Kernel.Gen.frame m ρ

/-- So does the kernel read over the extended reals. -/
theorem frame_kernel_ideal [Cert.KernelIdeal.Facts] [Cert.Pre_finite_inputs.Facts] : Cert.frame_KernelIdeal :=
  fun m ρ _ => Cert.KernelIdeal.Gen.frame m ρ

/-- The reference terminates and keeps its arguments: its run, with the statement about the result dropped. -/
theorem frame_reference_ideal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on `x`, `W` and `b`, both programs end with the result at
    `max (x(n, p) · W(p, q) + b(p, q), 0)`: the kernel by its blocks, the reference by its broadcasts. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.Affine.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v8_eq _ _ _).trans (Cert.ReferenceIdeal.Affine.result_eq _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
